-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x64 : Shape := ⟨2, ![1, 64]⟩
abbrev S5000x64 : Shape := ⟨2, ![5000, 64]⟩

abbrev nBuf : Space → Nat
  | .hbm => 24
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x1250000, .i32⟩
  | .hbm, ⟨6, _⟩ => ⟨S1250000, .i32⟩
  | .hbm, ⟨7, _⟩ => ⟨S1x1250000, .i32⟩
  | .hbm, ⟨8, _⟩ => ⟨S1250000, .i32⟩
  | .hbm, ⟨9, _⟩ => ⟨S_, .i32⟩
  | .hbm, ⟨10, _⟩ => ⟨S1250000, .i32⟩
  | .hbm, ⟨11, _⟩ => ⟨S1250000, .i1⟩
  | .hbm, ⟨12, _⟩ => ⟨S_, .i32⟩
  | .hbm, ⟨13, _⟩ => ⟨S1250000, .i32⟩
  | .hbm, ⟨14, _⟩ => ⟨S1250000, .i32⟩
  | .hbm, ⟨15, _⟩ => ⟨S1250000, .i32⟩
  | .hbm, ⟨16, _⟩ => ⟨S1250000x1, .i32⟩
  | .hbm, ⟨17, _⟩ => ⟨S1250000x64, .f32⟩
  | .hbm, ⟨18, _⟩ => ⟨S_, .f32⟩
  | .hbm, ⟨19, _⟩ => ⟨S100000x64, .f32⟩
  | .hbm, ⟨20, _⟩ => ⟨S1250000x1, .i32⟩
  | .hbm, ⟨21, _⟩ => ⟨S100000x64, .f32⟩
  | .hbm, ⟨22, _⟩ => ⟨S1x64, .f32⟩
  | .hbm, ⟨23, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1x64 : Shape := ⟨2, ![1, 64]⟩

abbrev nBuf : Space → Nat
  | .hbm => 29
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S1x1250000, .i32⟩
  | .hbm, ⟨6, _⟩ => ⟨S1250000, .i32⟩
  | .hbm, ⟨7, _⟩ => ⟨S1x1250000, .i32⟩
  | .hbm, ⟨8, _⟩ => ⟨S1250000, .i32⟩
  | .hbm, ⟨9, _⟩ => ⟨S_, .i32⟩
  | .hbm, ⟨10, _⟩ => ⟨S1250000, .i32⟩
  | .hbm, ⟨11, _⟩ => ⟨S1250000, .i1⟩
  | .hbm, ⟨12, _⟩ => ⟨S_, .i32⟩
  | .hbm, ⟨13, _⟩ => ⟨S1250000, .i32⟩
  | .hbm, ⟨14, _⟩ => ⟨S1250000, .i32⟩
  | .hbm, ⟨15, _⟩ => ⟨S1250000, .i32⟩
  | .hbm, ⟨16, _⟩ => ⟨S1250000x1, .i32⟩
  | .hbm, ⟨17, _⟩ => ⟨S1250000x64, .f32⟩
  | .hbm, ⟨18, _⟩ => ⟨S_, .f32⟩
  | .hbm, ⟨19, _⟩ => ⟨S100000x64, .f32⟩
  | .hbm, ⟨20, _⟩ => ⟨S1250000x1, .i32⟩
  | .hbm, ⟨21, _⟩ => ⟨S100000x64, .f32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | .hbm, ⟨26, _⟩ => ⟨S100000x64, .f32⟩
  | .hbm, ⟨27, _⟩ => ⟨S100000x64, .f32⟩
  | .hbm, ⟨28, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelBlock.lean ====
/-
  What the kernel body stores for one block of 5000 nodes, entry by entry, over the extended reals.

  The body loads the block's rows of the neighbour sums and of the features, the two weight matrices and the bias row,
  narrows the four matrices to bf16 (the identity on extended reals), multiplies each row block by its matrix into a
  zero accumulator, adds the two products, adds the bias row to every row, and applies `tanh`. So the entry at row `p`
  of the block and feature `q` is  tanh ((∑ₖ a[p,k]·W_l[k,q] + ∑ₖ x[p,k]·W_r[k,q]) + b[0,q]).
-/
import proofs.«138314_j5231270166915_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.Sage.Block

open Idealize.ShloMosaic Idealize.ShloMosaic.ValueIdx
open Cert.KernelIdeal Cert.KernelIdeal.Gen

/-! ## The operand indices of a [5000,64] × [64,64] product -/

theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A row block times a matrix into the zero accumulator, at row `p` and column `q`: the sum over the 64 input
    features of the row's entry times the column's entry. -/
theorem product_apply {φ₁ φ₂ : FTy} (a : FVec Ideal S5000x64 φ₁) (W : FVec Ideal S64x64 φ₂) (p : Fin 5000) (q : Fin 64) :
    matmul dot_S5000x64_S64x64_S5000x64_1_0_0_1_n_n none a W (constant (F := Ideal) S5000x64 .f32 0x00000000#32) (ix2 p q)
      = ∑ k : Fin 64, a (ix2 p k) * W (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- The bias row broadcast over the block's rows, at row `p` and column `q`: the bias of feature `q`. -/
theorem bias_apply (b : FVec Ideal S1x64 .f32) (p : Fin 5000) (q : Fin 64) :
    broadcastTo S5000x64 (shapeCast S1x64 b shapeCasts_S1x64_S1x64) broadcasts_S1x64_S5000x64 (ix2 p q) = b (ix2 0 q) := by
  rw [shapeCast_self]
  exact broadcastTo_apply b broadcasts_S1x64_S5000x64 (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])

/-- The entry the body stores at row `p` of the block and feature `q`. -/
theorem payload_apply (a x : Vec Ideal S5000x64 .f32) (Wl Wr : Vec Ideal S64x64 .f32) (b : Vec Ideal S1x64 .f32)
    (p : Fin 5000) (q : Fin 64) :
    k0_pay1 (F := Ideal) a x Wl Wr b (ix2 p q)
      = Ideal.tanh ((∑ k : Fin 64, a (ix2 p k) * Wl (ix2 k q) + ∑ k : Fin 64, x (ix2 p k) * Wr (ix2 k q)) + b (ix2 0 q)) := by
  unfold k0_pay1
  show Ideal.tanh ((matmul dot_S5000x64_S64x64_S5000x64_1_0_0_1_n_n none (truncf .bf16 (shapeCast S5000x64 a shapeCasts_S5000x64_S5000x64) bitsLt_bf16_f32) (truncf .bf16 Wl bitsLt_bf16_f32) (constant (F := Ideal) S5000x64 .f32 0x00000000#32) (ix2 p q)
      + matmul dot_S5000x64_S64x64_S5000x64_1_0_0_1_n_n none (truncf .bf16 x bitsLt_bf16_f32) (truncf .bf16 Wr bitsLt_bf16_f32) (constant (F := Ideal) S5000x64 .f32 0x00000000#32) (ix2 p q))
      + broadcastTo S5000x64 (shapeCast S1x64 b shapeCasts_S1x64_S1x64) broadcasts_S1x64_S5000x64 (ix2 p q)) = _
  rw [product_apply, product_apply, bias_apply, shapeCast_self]
  rfl

end Cert.Sage.Block

end
-- ==== Proof.SageSpec.lean ====
/-
  What one GraphSAGE layer with sum aggregation computes, as ONE function of its arrays over the extended reals.

  With `aggr` the neighbour sums (row `r` = the sum of the feature rows of the sources of the edges into node `r`),
  the layer's entry at node `r` and output feature `j` is

      tanh ( (∑ₖ aggr[r,k] · W_l[k,j]  +  ∑ₖ x[r,k] · W_r[k,j])  +  b_l[j] ).

  Adding the bias before the root term instead, `(∑ₖ aggr·W_l + b_l) + ∑ₖ x·W_r`, is the same number: addition on the
  extended reals is commutative and associative (with `⊥ + ⊤ = ⊥` it is still a commutative monoid), so no entry has
  to be finite for this.
-/
import Idealize.ShloMosaic.PureOps.Ideal
import Idealize.ShloMosaic.Lib.ValueIdx

noncomputable section

namespace Cert.Sage

open Idealize.ShloMosaic Idealize.ShloMosaic.ValueIdx

/-- Node features and layer outputs: 100000 nodes, 64 features. -/
abbrev Nodes : Shape := ⟨2, ![100000, 64]⟩
/-- A weight matrix: 64 input features by 64 output features. -/
abbrev Weights : Shape := ⟨2, ![64, 64]⟩
/-- The bias: one number per output feature. -/
abbrev Bias : Shape := ⟨1, ![64]⟩

/-- Row `r` of `a` against column `j` of `W`: the sum over the 64 input features. -/
def rowCol (a : FVec Ideal Nodes .f32) (W : FVec Ideal Weights .f32) (r : Fin 100000) (j : Fin 64) : EReal :=
  ∑ k : Fin 64, a (ix2 r k) * W (ix2 k j)

/-- The layer: neighbour term plus root term, then the bias, then `tanh`. -/
def layer (aggr x : FVec Ideal Nodes .f32) (Wl : FVec Ideal Weights .f32) (bl : FVec Ideal Bias .f32)
    (Wr : FVec Ideal Weights .f32) : FVec Ideal Nodes .f32 :=
  fun i => Ideal.tanh ((rowCol aggr Wl (i 0) (i 1) + rowCol x Wr (i 0) (i 1)) + bl (ix1 (i 1)))

/-- The bias added before the root term gives the same entry. -/
theorem layer_bias_first (aggr x : FVec Ideal Nodes .f32) (Wl : FVec Ideal Weights .f32) (bl : FVec Ideal Bias .f32)
    (Wr : FVec Ideal Weights .f32) (i : Nodes.Idx) :
    Ideal.tanh ((rowCol aggr Wl (i 0) (i 1) + bl (ix1 (i 1))) + rowCol x Wr (i 0) (i 1)) = layer aggr x Wl bl Wr i := by
  unfold layer
  rw [add_right_comm]

end Cert.Sage

end
-- ==== Proof.KernelValue.lean ====
/-
  The kernel's result array after the run is the layer of `Cert.Sage`, applied to the neighbour sums as the launch
  finds them.

  The grid has 20 points. Point `t` reads rows 5000·t … 5000·t + 4999 of the neighbour sums and of the features, both
  weight matrices and the bias row whole, and writes rows 5000·t … 5000·t + 4999 of the result. Entry (p, q) of what it
  writes is `Cert.Sage.Block.payload_apply`'s number, which is entry (5000·t + p, q) of the layer: the matrix sums run
  over row 5000·t + p of the two node arrays, and the bias row [1,64] is the bias vector [64] reshaped. The 20 row blocks
  tile the 100000 rows (row `r` lies in the block of point `r / 5000`), so the whole array ends at the layer.
-/
import proofs.«138314_j5231270166915_1_alg».proof.Proof.Gen.KernelIdeal.Value
import proofs.«138314_j5231270166915_1_alg».proof.Proof.KernelBlock
import proofs.«138314_j5231270166915_1_alg».proof.Proof.SageSpec
import Idealize.ShloMosaic.Lib.Pipeline.Value
import Idealize.ShloMosaic.Lib.StableHlo.Run
import Idealize.ShloMosaic.Lib.Tactic

noncomputable section

namespace Cert.Sage.Kernel

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The block each window is on at point `t`: the three row-blocked windows on block row `t`, the matrices and the bias
    row on their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## A window's block at a point, read off ANY contents of its array

Stated for arbitrary contents `f`: which entry of the array a block entry is depends on the window's index map only. -/

/-- Row `y 0` of the first window's block at point `t` is row `5000·t + y 0` of its array. -/
theorem read_rows0 (t : Fin cfg0.N) (f : FVec Ideal S100000x64 .f32) (y : S5000x64.Idx) (i : S100000x64.Idx)
    (h0 : (i 0).val = t.val * 5000 + (y 0).val) (h1 : (i 1).val = (y 1).val) :
    ((cfg0.win 0).blk t).view.read (Elt Ideal) f y = f i := by
  obtain ⟨e0, e1, -⟩ := idx_facts t
  rw [View.read_apply]
  show f _ = f i
  refine congrArg f (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 64 + 1 * (y 1).val = (i 1).val; rw [e1, h1]; omega

/-- The same for the second window. -/
theorem read_rows1 (t : Fin cfg0.N) (f : FVec Ideal S100000x64 .f32) (y : S5000x64.Idx) (i : S100000x64.Idx)
    (h0 : (i 0).val = t.val * 5000 + (y 0).val) (h1 : (i 1).val = (y 1).val) :
    ((cfg0.win 1).blk t).view.read (Elt Ideal) f y = f i := by
  obtain ⟨-, -, e0, e1, -⟩ := idx_facts t
  rw [View.read_apply]
  show f _ = f i
  refine congrArg f (funext fun a => Fin.ext ?_)
  match a with
  | ⟨0, _⟩ => show win0_1.index t (0 : Fin 2) * 5000 + 1 * (y 0).val = (i 0).val; rw [e0, h0]; omega
  | ⟨1, _⟩ => show win0_1.index t (1 : Fin 2) * 64 + 1 * (y 1).val = (i 1).val; rw [e1, h1]; omega

/-- The third window's one block is its whole array. -/
theorem read_whole2 (t : Fin cfg0.N) (f : FVec Ideal S64x64 .f32) :
    ((cfg0.win 2).blk t).view.read (Elt Ideal) f = f := by
  obtain ⟨-, -, -, -, e0, e1, -⟩ := idx_facts t
  funext y
  rw [View.read_apply]
  show f _ = f y
  refine congrArg f (funext fun a => Fin.ext ?_)
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- The fifth window's one block is its whole array. -/
theorem read_whole4 (t : Fin cfg0.N) (f : FVec Ideal S64x64 .f32) :
    ((cfg0.win 4).blk t).view.read (Elt Ideal) f = f := by
  obtain ⟨-, -, -, -, -, -, -, -, e0, e1, -⟩ := idx_facts t
  funext y
  rw [View.read_apply]
  show f _ = f y
  refine congrArg f (funext fun a => Fin.ext ?_)
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- The fourth window's one block is its whole one-row array. -/
theorem read_whole3 (t : Fin cfg0.N) (f : FVec Ideal S1x64 .f32) :
    ((cfg0.win 3).blk t).view.read (Elt Ideal) f = f := by
  obtain ⟨-, -, -, -, -, -, e0, e1, -⟩ := idx_facts t
  funext y
  rw [View.read_apply]
  show f _ = f y
  refine congrArg f (funext fun a => Fin.ext ?_)
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- What point `t` writes back of a stored block `P` is block `t` of `R`, when row `y 0` of `P` is row `5000·t + y 0` of `R`. -/
theorem written_rows (t : Fin cfg0.N) (R : FVec Ideal S100000x64 .f32) (P : Vec Ideal S5000x64 .f32)
    (h : ∀ (y : S5000x64.Idx) (i : S100000x64.Idx), (i 0).val = t.val * 5000 + (y 0).val → (i 1).val = (y 1).val → P y = R i) :
    (cfg0.win 5).cut (grid0.coords t) P = ((cfg0.win 5).blk t).view.read (Elt Ideal) R := by
  obtain ⟨-, -, -, -, -, -, -, -, -, -, e0, e1⟩ := idx_facts t
  funext j
  rw [View.read_apply]
  show P j = R (((cfg0.win 5).blk t).view.emb j)
  refine h j _ ?_ ?_
  · show win0_5.index t (0 : Fin 2) * 5000 + 1 * (j 0).val = t.val * 5000 + (j 0).val; rw [e0]; omega
  · show win0_5.index t (1 : Fin 2) * 64 + 1 * (j 1).val = (j 1).val; rw [e1]; omega

/-- One row `[1,64]` that is a `[64]` vector reshaped, at column `q`. -/
theorem row_of_vector (v : FVec Ideal S64 .f32) (q : Fin 64) :
    shapeCast S1x64 v shapeCasts_S64_S1x64 (ix2 0 q) = v (ix1 q) := by
  refine shapeCast_apply v shapeCasts_S64_S1x64 (ix2 0 q) (ix1 q) ?_
  rewrite [Shape.rowMajor_val_one, Shape.rowMajor_val_two]
  show q.val = 0 * 64 + q.val
  omega

/-! ## The arrays as the launch finds them -/

/-- The neighbour sums: what the host operations before the launch leave in the first window's array. -/
abbrev aggr (c : Dev nD) : FVec Ideal S100000x64 .f32 := V m c (Pipeline.arrRef spec0 0)

/-- The bias row as the launch finds it: the bias vector reshaped to one row. -/
theorem bias_row (c : Dev nD) :
    (V m c main_v14 : FVec Ideal S1x64 .f32) = shapeCast S1x64 (m ((c : Thread nD τ).loc main_arg3)) shapeCasts_S64_S1x64 := by
  dsimp only [Gen.V, Gen.hostOps0]
  after_results
  rfl

/-- Row `y 0` of the neighbour sums' block at point `t` is row `5000·t + y 0` of the array. -/
theorem aggr_block (c : Dev nD) (t : Fin cfg0.N) (y : S5000x64.Idx) (i : S100000x64.Idx)
    (h0 : (i 0).val = t.val * 5000 + (y 0).val) (h1 : (i 1).val = (y 1).val) :
    (iblk m c 0 t : Vec Ideal S5000x64 .f32) y = aggr m c i := by
  unfold iblk
  exact read_rows0 t _ y i h0 h1

/-- The same for the features, which no host operation before the launch writes. -/
theorem feat_block (c : Dev nD) (t : Fin cfg0.N) (y : S5000x64.Idx) (i : S100000x64.Idx)
    (h0 : (i 0).val = t.val * 5000 + (y 0).val) (h1 : (i 1).val = (y 1).val) :
    (iblk m c 1 t : Vec Ideal S5000x64 .f32) y = (m ((c : Thread nD τ).loc main_arg0) : FVec Ideal S100000x64 .f32) i := by
  unfold iblk
  exact (read_rows1 t _ y i h0 h1).trans (congrFun (V_main_arg0 m c) i)

/-- The neighbour weights' block is the whole matrix as launched. -/
theorem wl_block (c : Dev nD) (t : Fin cfg0.N) :
    (iblk m c 2 t : Vec Ideal S64x64 .f32) = (m ((c : Thread nD τ).loc main_arg2) : FVec Ideal S64x64 .f32) := by
  unfold iblk
  exact (read_whole2 t _).trans (V_main_arg2 m c)

/-- The root weights' block is the whole matrix as launched. -/
theorem wr_block (c : Dev nD) (t : Fin cfg0.N) :
    (iblk m c 4 t : Vec Ideal S64x64 .f32) = (m ((c : Thread nD τ).loc main_arg4) : FVec Ideal S64x64 .f32) := by
  unfold iblk
  exact (read_whole4 t _).trans (V_main_arg4 m c)

/-- Entry (0, q) of the bias row's block is the bias of feature `q`. -/
theorem bias_block (c : Dev nD) (t : Fin cfg0.N) (q : Fin 64) :
    (iblk m c 3 t : Vec Ideal S1x64 .f32) (ix2 0 q) = (m ((c : Thread nD τ).loc main_arg3) : FVec Ideal S64 .f32) (ix1 q) := by
  unfold iblk
  exact (congrFun ((read_whole3 t _).trans (bias_row m c)) (ix2 0 q)).trans (row_of_vector _ q)

/-! ## What a point writes back, and the array after the run -/

/-- The layer the kernel computes on core `c`. -/
abbrev result (c : Dev nD) : FVec Ideal S100000x64 .f32 :=
  Cert.Sage.layer (aggr m c) (m ((c : Thread nD τ).loc main_arg0)) (m ((c : Thread nD τ).loc main_arg2))
    (m ((c : Thread nD τ).loc main_arg3)) (m ((c : Thread nD τ).loc main_arg4))

/-- An entry of the stored block, given where its row sits in the arrays, is the layer's entry there. -/
theorem stored_entry (A X : FVec Ideal S100000x64 .f32) (Wl Wr : FVec Ideal S64x64 .f32) (bl : FVec Ideal S64 .f32)
    (a x : Vec Ideal S5000x64 .f32) (wl wr : Vec Ideal S64x64 .f32) (b : Vec Ideal S1x64 .f32) (t : Nat)
    (ha : ∀ (y : S5000x64.Idx) (i : S100000x64.Idx), (i 0).val = t * 5000 + (y 0).val → (i 1).val = (y 1).val → a y = A i)
    (hx : ∀ (y : S5000x64.Idx) (i : S100000x64.Idx), (i 0).val = t * 5000 + (y 0).val → (i 1).val = (y 1).val → x y = X i)
    (hwl : wl = Wl) (hwr : wr = Wr) (hb : ∀ q : Fin 64, b (ix2 0 q) = bl (ix1 q))
    (y : S5000x64.Idx) (i : S100000x64.Idx) (h0 : (i 0).val = t * 5000 + (y 0).val) (h1 : (i 1).val = (y 1).val) :
    k0_pay1 (F := Ideal) a x wl wr b y = Cert.Sage.layer A X Wl bl Wr i := by
  obtain ⟨p, q, rfl⟩ : ∃ (p : Fin 5000) (q : Fin 64), y = ix2 p q := ⟨y 0, y 1, eq_ix2 y⟩
  rw [Cert.Sage.Block.payload_apply, hwl, hwr, hb]
  have hq : i 1 = q := Fin.ext h1
  unfold Cert.Sage.layer Cert.Sage.rowCol
  rw [hq]
  refine congrArg Ideal.tanh (congrArg₂ (· + ·) (congrArg₂ (· + ·) ?_ ?_) rfl)
  · exact Finset.sum_congr rfl fun k _ => by rw [ha (ix2 p k) (ix2 (i 0) k) h0 rfl]
  · exact Finset.sum_congr rfl fun k _ => by rw [hx (ix2 p k) (ix2 (i 0) k) h0 rfl]

/-- What point `t` writes back is block `t` of the layer. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz]
  simp only [View.ld_unit_zero (S := S5000x64) hz, View.ld_unit_zero (S := S64x64) hz, View.ld_unit_zero (S := S1x64) hz]
  exact written_rows t (result m c) (k0_pay1 (F := Ideal) (iblk m c 0 t) (iblk m c 1 t) (iblk m c 2 t) (iblk m c 4 t) (iblk m c 3 t))
    (fun y i h0 h1 => stored_entry (aggr m c) (m ((c : Thread nD τ).loc main_arg0)) (m ((c : Thread nD τ).loc main_arg2))
      (m ((c : Thread nD τ).loc main_arg4)) (m ((c : Thread nD τ).loc main_arg3))
      (iblk m c 0 t) (iblk m c 1 t) (iblk m c 2 t) (iblk m c 4 t) (iblk m c 3 t) t.val
      (fun y i h0 h1 => aggr_block m c t y i h0 h1) (fun y i h0 h1 => feat_block m c t y i h0 h1)
      (wl_block m c t) (wr_block m c t) (fun q => bias_block m c t q) y i h0 h1)

/-- An index of the result array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v15).slice (win0_5.rect t)).set ↔ _
  rw [View.set_slice_whole, Rect.mem_set_unit]
  exact Iff.rfl

/-- Every row lies in the block of the point `row / 5000`. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 64 ≤ (i 1).val ∧ (i 1).val < win0_5.index t (1 : Fin 2) * 64 + 64; rw [e1]; omega

/-- The result array after the run is the layer. -/
theorem final (c : Dev nD) : (dats m 0 c).arrAt 5 cfg0.N = result m c :=
  (dats m 0 c).arrAt_eq_of_cover 5 (result m c) (fun t _ => flushed_eq m c t) covered

/-- The kernel's run, read: the result array at the layer, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.Sage.Kernel

end
-- ==== Proof.RefValue.lean ====
/-
  The reference program's result, read at an index, is the layer of `Cert.Sage` applied to its own neighbour sums.

  The reference adds the bias to the neighbour term first and the root term after; `Cert.Sage.layer` adds the two matrix
  terms first. Both matrix products are sums over the 64 input features of row entry times column entry, the bias of
  feature `j` is read through a [64] → [1,64] → [100000,64] broadcast, and the host's `tanh` is the extended-real `tanh`.
-/
import proofs.«138314_j5231270166915_1_alg».proof.Proof.Gen.ReferenceIdeal.Read
import proofs.«138314_j5231270166915_1_alg».proof.Proof.SageSpec

noncomputable section

namespace Cert.Sage.Ref

open Idealize.ShloMosaic Idealize.ShloMosaic.ValueIdx
open Cert.ReferenceIdeal Cert.ReferenceIdeal.Read

/-- The left operand's index of either product at output index `i` and feature `k`: row `i 0`, column `k`. -/
theorem lidx14 (i : S100000x64.Idx) (k : Fin 64) : lidx_main_v14 i k = ix2 (i 0) k :=
  funext fun a => Fin.ext (by match a with | ⟨0, _⟩ => rfl | ⟨1, _⟩ => rfl)
theorem ridx14 (i : S100000x64.Idx) (k : Fin 64) : ridx_main_v14 i k = ix2 k (i 1) :=
  funext fun a => Fin.ext (by match a with | ⟨0, _⟩ => rfl | ⟨1, _⟩ => rfl)
theorem lidx18 (i : S100000x64.Idx) (k : Fin 64) : lidx_main_v18 i k = ix2 (i 0) k :=
  funext fun a => Fin.ext (by match a with | ⟨0, _⟩ => rfl | ⟨1, _⟩ => rfl)
theorem ridx18 (i : S100000x64.Idx) (k : Fin 64) : ridx_main_v18 i k = ix2 k (i 1) :=
  funext fun a => Fin.ext (by match a with | ⟨0, _⟩ => rfl | ⟨1, _⟩ => rfl)
/-- The bias entry the two broadcasts read at output index `i`: feature `i 1`. -/
theorem bidx (i : S100000x64.Idx) : idx_main_v15 (idx_main_v16 i) = ix1 (i 1) :=
  funext fun a => Fin.ext (by match a with | ⟨0, _⟩ => rfl)

/-- The reference's result array is the layer of its neighbour sums `val_main_v13 x0 x1`, the features `x0`, the two
    weight matrices and the bias. -/
theorem result_eq (x0 : FVec Ideal S100000x64 .f32) (x1 : IVec S2x1250000 32) (x2 : FVec Ideal S64x64 .f32)
    (x3 : FVec Ideal S64 .f32) (x4 : FVec Ideal S64x64 .f32) :
    val_main_v20 (F := Ideal) x0 x1 x2 x3 x4 = Cert.Sage.layer (val_main_v13 (F := Ideal) x0 x1) x0 x2 x3 x4 := by
  funext i
  rw [val_main_v20_apply, val_main_v19_apply, val_main_v17_apply, val_main_v14_apply, val_main_v16_apply,
    val_main_v15_apply, val_main_v18_apply]
  simp only [lidx14, ridx14, lidx18, ridx18, bidx, Ideal.hostUnary_tanh_def, Ideal.addf_def]
  exact Cert.Sage.layer_bias_first _ _ _ _ _ i

end Cert.Sage.Ref

end
-- ==== Proof.SameSums.lean ====
/-
  Both programs form the neighbour sums by the same host operations: the source and target rows of the edge list, a source
  id below zero moved up by 100000, the gather of the sources' feature rows, and the scatter-add of those rows at the
  targets into a zero array. So, from the same features and the same edge list, the array the kernel's launch finds and
  the reference's own intermediate are one term; nothing about gather or scatter-add is used beyond that.
-/
import proofs.«138314_j5231270166915_1_alg».proof.Proof.KernelValue
import proofs.«138314_j5231270166915_1_alg».proof.Proof.RefValue

noncomputable section

namespace Cert.Sage

open Idealize.ShloMosaic Idealize.ShloMosaic.TcCoe Idealize.SL.Sem

/-- The neighbour sums as the kernel program's host operations compute them from the features `x0` and the edge list `x1`. -/
def kernelSums (x0 : FVec Ideal Cert.KernelIdeal.S100000x64 .f32) (x1 : IVec Cert.KernelIdeal.S2x1250000 32) :
    FVec Ideal Cert.KernelIdeal.S100000x64 .f32 :=
  open Cert.KernelIdeal Cert.KernelIdeal.Facts₀ in
  Host.scatterAdd scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0
      (shapeCast _ (extractStridedSlice S1x1250000 ![1, 0] x1 slices_S2x1250000_S1x1250000_1_0) shapeCasts_S1x1250000_S1250000))
    (Host.gather gather_S100000x64_S1250000x1_S1250000x64_1_0_n_n_0_1_164 x0
      (broadcastInDim S1250000x1 ![0] bcast_S1250000_S1250000x1_0
        (select
          (cmpi .slt (shapeCast _ (extractStridedSlice S1x1250000 ![0, 0] x1 slices_S2x1250000_S1x1250000_0_0) shapeCasts_S1x1250000_S1250000)
            (broadcastInDim S1250000 ![] bcast_S_S1250000 (constantI S_ 32 0#32)))
          (addi (shapeCast _ (extractStridedSlice S1x1250000 ![0, 0] x1 slices_S2x1250000_S1x1250000_0_0) shapeCasts_S1x1250000_S1250000)
            (broadcastInDim S1250000 ![] bcast_S_S1250000 (constantI S_ 32 100000#32)))
          (shapeCast _ (extractStridedSlice S1x1250000 ![0, 0] x1 slices_S2x1250000_S1x1250000_0_0) shapeCasts_S1x1250000_S1250000))))

/-- What the kernel's launch finds in its first window's array is that term of the launch contents. -/
theorem aggr_eq (m : (ℓ : Loc Cert.KernelIdeal.nD Cert.KernelIdeal.τ Cert.KernelIdeal.sig) → Buf (Elt Ideal) ℓ) (c : Dev Cert.KernelIdeal.nD) :
    Cert.Sage.Kernel.aggr m c
      = kernelSums (m ((c : Thread Cert.KernelIdeal.nD Cert.KernelIdeal.τ).loc Cert.KernelIdeal.main_arg0))
          (m ((c : Thread Cert.KernelIdeal.nD Cert.KernelIdeal.τ).loc Cert.KernelIdeal.main_arg1)) := by
  show Cert.KernelIdeal.Gen.V m c Cert.KernelIdeal.main_v13 = _
  dsimp only [Cert.KernelIdeal.Gen.V, Cert.KernelIdeal.Gen.hostOps0]
  after_results
  rfl

/-- The reference's intermediate is the same term: the two programs' operations, shapes and dimension records agree. -/
theorem sums_eq (x0 : FVec Ideal Cert.KernelIdeal.S100000x64 .f32) (x1 : IVec Cert.KernelIdeal.S2x1250000 32) :
    Cert.ReferenceIdeal.Read.val_main_v13 (F := Ideal) x0 x1 = kernelSums x0 x1 := by
  unfold Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
    Cert.ReferenceIdeal.Read.val_main_c Cert.ReferenceIdeal.Read.val_main_c_0 kernelSums
  rfl

end Cert.Sage

end
-- ==== Proof.lean ====
/-
  One GraphSAGE layer with sum aggregation: a Pallas kernel for the dense part against the plain jnp reference.

  Both programs first form the neighbour sums on the host, by the same operations: gather the feature row of every edge's
  source, scatter-add it at the edge's target. The kernel program then runs one kernel over 20 blocks of 5000 nodes that
  computes  tanh ((aggr · W_l + x · W_r) + b_l)  with the four matrices narrowed to bf16 before the two products; the
  reference computes  tanh ((aggr · W_l + b_l) + x · W_r)  in f32.

  Over the extended reals the narrowing is the identity and both matrix products are exact sums over the 64 input
  features, so the only difference is the order in which the bias and the root term are added; addition there is
  commutative and associative, so the two results agree entry by entry, whether or not the inputs are finite.

    * `Cert.Sage.layer`        — the layer as one function of the neighbour sums and the arguments, and the law that joins
                                  the two orders of addition;
    * `Cert.Sage.Ref`          — the reference's result is the layer of its neighbour sums;
    * `Cert.Sage.Block`        — the entry the kernel body stores at a row and a feature of its block;
    * `Cert.Sage.Kernel`       — each block is the layer's rows, the blocks tile the nodes, so the kernel's result array is
                                  the layer of the neighbour sums its launch finds;
    * `Cert.Sage.aggr_eq`, `sums_eq` — the two programs' neighbour sums are one term of the features and the edge list.

  The three programs' runs (termination, no fault, arguments unchanged) are the two kernels' frames and the reference's
  run with its result dropped; no operation of the kernel is rewritten for the reading over the extended reals, so that
  reading is the kernel's own text and there is nothing further to state about it.
-/
import proofs.«138314_j5231270166915_1_alg».proof.Defs
import proofs.«138314_j5231270166915_1_alg».proof.Proof.Gen.Kernel
import proofs.«138314_j5231270166915_1_alg».proof.Proof.Gen.Kernel.Skeleton
import proofs.«138314_j5231270166915_1_alg».proof.Proof.Gen.Kernel.Launch
import proofs.«138314_j5231270166915_1_alg».proof.Proof.Gen.Kernel.Points
import proofs.«138314_j5231270166915_1_alg».proof.Proof.Gen.Kernel.Frame
import proofs.«138314_j5231270166915_1_alg».proof.Proof.Gen.KernelIdeal
import proofs.«138314_j5231270166915_1_alg».proof.Proof.Gen.KernelIdeal.Skeleton
import proofs.«138314_j5231270166915_1_alg».proof.Proof.Gen.KernelIdeal.Launch
import proofs.«138314_j5231270166915_1_alg».proof.Proof.Gen.KernelIdeal.Points
import proofs.«138314_j5231270166915_1_alg».proof.Proof.Gen.KernelIdeal.Frame
import proofs.«138314_j5231270166915_1_alg».proof.Proof.Gen.ReferenceIdeal
import proofs.«138314_j5231270166915_1_alg».proof.Proof.Gen.Pre_finite_inputs
import proofs.«138314_j5231270166915_1_alg».proof.Proof.Gen.KernelIdeal.Value
import proofs.«138314_j5231270166915_1_alg».proof.Proof.Gen.ReferenceIdeal.Run
import proofs.«138314_j5231270166915_1_alg».proof.Proof.Gen.ReferenceIdeal.Read
import proofs.«138314_j5231270166915_1_alg».proof.Proof.SameSums
import Idealize.ShloMosaic.Adequacy
import Idealize.ShloMosaic.Init

noncomputable section

namespace Cert.Proof

open Idealize.ShloMosaic Idealize.SL.Sem

/-- The kernel program at the word level runs and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- And the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From the same arguments the kernel's result array and the reference's are the same layer: the kernel's is the layer
    of the neighbour sums its launch finds, the reference's the layer of its own, and the two sums are one term. -/
theorem algebraic : Cert.algebraic_KernelIdeal_ReferenceIdeal := by
  intro m ρ m' ρ' _ hagree
  refine ⟨fun c => Cert.Sage.Kernel.result m c, Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.Sage.Ref.result_eq,
    (hagree c).1, (hagree c).2.1, (hagree c).2.2.1, (hagree c).2.2.2.1, (hagree c).2.2.2.2,
    Cert.Sage.sums_eq, ← Cert.Sage.aggr_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
